-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S16x1024 : Shape := ⟨2, ![16, 1024]⟩
abbrev S16 : Shape := ⟨1, ![16]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S16 : S_.BroadcastsInDim S16 (![] : Fin 0 → Fin S16.rank)
  reducesTo_S16_S_d0 : S16.ReducesTo [0] S_
  bcast_S_S1048576x16 : S_.BroadcastsInDim S1048576x16 (![] : Fin 0 → Fin S1048576x16.rank)
  reducesTo_S1048576x16_S_d0_1 : S1048576x16.ReducesTo [0, 1] S_

variable [Facts]

def fn {F : FTy → Type} [FloatOps F] (main_arg0 : IVec S1048576x16 32) (main_arg1 : FVec F S16x1024 .f32) (main_arg2 : FVec F S16 .f32) : IVec S_ 1 :=
  let main_v0 : FVec F S16x1024 .f32 := Host.absf main_arg1
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_c_2 : IVec S_ 32 := constantI S_ 32 0#32
  let main_v9 : IVec S1048576x16 32 := broadcastInDim S1048576x16 ![] bcast_S_S1048576x16 main_c_2
  let main_v10 : IVec S1048576x16 1 := cmpi .sge main_arg0 main_v9
  let main_c_3 : IVec S_ 32 := constantI S_ 32 1024#32
  let main_v11 : IVec S1048576x16 32 := broadcastInDim S1048576x16 ![] bcast_S_S1048576x16 main_c_3
  let main_v12 : IVec S1048576x16 1 := cmpi .slt main_arg0 main_v11
  let main_v13 : IVec S1048576x16 1 := andi main_v10 main_v12
  let main_c_4 : IVec S_ 1 := constantI S_ 1 1#1
  let main_v14 : IVec S_ 1 := (fun x v => Host.reduce IntOp.andi x v reducesTo_S1048576x16_S_d0_1 h_S_) main_v13 main_c_4
  let main_v15 : IVec S_ 1 := andi main_v8 main_v14
  main_v15
-- ==== Kernel.lean ====
abbrev S1048576x16 : Shape := ⟨2, ![1048576, 16]⟩
abbrev S16x1024 : Shape := ⟨2, ![16, 1024]⟩
abbrev S16 : Shape := ⟨1, ![16]⟩
abbrev S4096x16 : Shape := ⟨2, ![4096, 16]⟩
abbrev S1x256 : Shape := ⟨2, ![1, 256]⟩
abbrev S4096x1 : Shape := ⟨2, ![4096, 1]⟩
abbrev S1x1024 : Shape := ⟨2, ![1, 1024]⟩
abbrev S1024 : Shape := ⟨1, ![1024]⟩
abbrev S4096x256 : Shape := ⟨2, ![4096, 256]⟩
abbrev S256 : Shape := ⟨1, ![256]⟩
abbrev S256x1 : Shape := ⟨2, ![256, 1]⟩
abbrev S1 : Shape := ⟨1, ![1]⟩

abbrev nBuf : Space → Nat
  | .hbm => 4
  | .vmem => 6
  | .smem => 0
  | _ => 0

abbrev bufTy : (tb : Table) → Fin (tcTables nBuf tb) → BufTy
  | .hbm, ⟨0, _⟩ => ⟨S1048576x16, .i32⟩
  | .hbm, ⟨1, _⟩ => ⟨S16x1024, .f32⟩
  | .hbm, ⟨2, _⟩ => ⟨S16, .f32⟩
  | .hbm, ⟨3, _⟩ => ⟨S1048576x16, .f32⟩
  | .local _ .vmem, ⟨0, _⟩ => ⟨S4096x16, .i32⟩
  | .local _ .vmem, ⟨1, _⟩ => ⟨S4096x16, .i32⟩
  | .local _ .vmem, ⟨2, _⟩ => ⟨S16x1024, .f32⟩
  | .local _ .vmem, ⟨3, _⟩ => ⟨S16, .f32⟩
  | .local _ .vmem, ⟨4, _⟩ => ⟨S4096x16, .f32⟩
  | .local _ .vmem, ⟨5, _⟩ => ⟨S4096x16, .f32⟩
  | _, _ => ⟨S1048576x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x16_S4096x16_0_0 : ∀ a, (![0, 0] : Fin 2 → Nat) a + S4096x16.size a ≤ S4096x16.size a
  h_S4096x16 : 0 < S4096x16.numel
  inb_S16_S16_0 : ∀ a, (![0] : Fin 1 → Nat) a + S16.size a ≤ S16.size a
  h_S16 : 0 < S16.numel
  iota_S1x256_d1_w32 : S1x256.Iotas .tc 32 [1]
  slices_S4096x16_o0_0_S4096x1 : S4096x16.Slices ![0, 0] S4096x1
  inb_S16x1024_S1x1024_0_0 : ∀ a, (![0, 0] : Fin 2 → Nat) a + S1x1024.size a ≤ S16x1024.size a
  h_S1x1024 : 0 < S1x1024.numel
  shapeCasts_S1x1024_S1024 : S1x1024.ShapeCasts S1024
  broadcasts_S4096x1_S4096x256 : S4096x1.Broadcasts S4096x256
  broadcasts_S1x256_S4096x256 : S1x256.Broadcasts S4096x256
  slices_S1024_o0_S256 : S1024.Slices ![0] S256
  shapeCasts_S256_S256x1 : S256.ShapeCasts S256x1
  slices_S1024_o256_S256 : S1024.Slices ![256] S256
  slices_S1024_o512_S256 : S1024.Slices ![512] S256
  slices_S1024_o768_S256 : S1024.Slices ![768] S256
  slices_S16_o0_S1 : S16.Slices ![0] S1
  inpos_S1_p0 : ∀ a, (![0] : Fin 1 → Nat) a < S1.size a
  inb_S4096x16_S4096x1_0_0 : ∀ a, (![0, 0] : Fin 2 → Nat) a + S4096x1.size a ≤ S4096x16.size a
  h_S4096x1 : 0 < S4096x1.numel
  slices_S4096x16_o0_1_S4096x1 : S4096x16.Slices ![0, 1] S4096x1
  inb_S16x1024_S1x1024_1_0 : ∀ a, (![1, 0] : Fin 2 → Nat) a + S1x1024.size a ≤ S16x1024.size a
  slices_S16_o1_S1 : S16.Slices ![1] S1
  inb_S4096x16_S4096x1_0_1 : ∀ a, (![0, 1] : Fin 2 → Nat) a + S4096x1.size a ≤ S4096x16.size a
  slices_S4096x16_o0_2_S4096x1 : S4096x16.Slices ![0, 2] S4096x1
  inb_S16x1024_S1x1024_2_0 : ∀ a, (![2, 0] : Fin 2 → Nat) a + S1x1024.size a ≤ S16x1024.size a
  slices_S16_o2_S1 : S16.Slices ![2] S1
  inb_S4096x16_S4096x1_0_2 : ∀ a, (![0, 2] : Fin 2 → Nat) a + S4096x1.size a ≤ S4096x16.size a
  slices_S4096x16_o0_3_S4096x1 : S4096x16.Slices ![0, 3] S4096x1
  inb_S16x1024_S1x1024_3_0 : ∀ a, (![3, 0] : Fin 2 → Nat) a + S1x1024.size a ≤ S16x1024.size a
  slices_S16_o3_S1 : S16.Slices ![3] S1
  inb_S4096x16_S4096x1_0_3 : ∀ a, (![0, 3] : Fin 2 → Nat) a + S4096x1.size a ≤ S4096x16.size a
  slices_S4096x16_o0_4_S4096x1 : S4096x16.Slices ![0, 4] S4096x1
  inb_S16x1024_S1x1024_4_0 : ∀ a, (![4, 0] : Fin 2 → Nat) a + S1x1024.size a ≤ S16x1024.size a
  slices_S16_o4_S1 : S16.Slices ![4] S1
  inb_S4096x16_S4096x1_0_4 : ∀ a, (![0, 4] : Fin 2 → Nat) a + S4096x1.size a ≤ S4096x16.size a
  slices_S4096x16_o0_5_S4096x1 : S4096x16.Slices ![0, 5] S4096x1
  inb_S16x1024_S1x1024_5_0 : ∀ a, (![5, 0] : Fin 2 → Nat) a + S1x1024.size a ≤ S16x1024.size a
  slices_S16_o5_S1 : S16.Slices ![5] S1
  inb_S4096x16_S4096x1_0_5 : ∀ a, (![0, 5] : Fin 2 → Nat) a + S4096x1.size a ≤ S4096x16.size a
  slices_S4096x16_o0_6_S4096x1 : S4096x16.Slices ![0, 6] S4096x1
  inb_S16x1024_S1x1024_6_0 : ∀ a, (![6, 0] : Fin 2 → Nat) a + S1x1024.size a ≤ S16x1024.size a
  slices_S16_o6_S1 : S16.Slices ![6] S1
  inb_S4096x16_S4096x1_0_6 : ∀ a, (![0, 6] : Fin 2 → Nat) a + S4096x1.size a ≤ S4096x16.size a
  slices_S4096x16_o0_7_S4096x1 : S4096x16.Slices ![0, 7] S4096x1
  inb_S16x1024_S1x1024_7_0 : ∀ a, (![7, 0] : Fin 2 → Nat) a + S1x1024.size a ≤ S16x1024.size a
  slices_S16_o7_S1 : S16.Slices ![7] S1
  inb_S4096x16_S4096x1_0_7 : ∀ a, (![0, 7] : Fin 2 → Nat) a + S4096x1.size a ≤ S4096x16.size a
  slices_S4096x16_o0_8_S4096x1 : S4096x16.Slices ![0, 8] S4096x1
  inb_S16x1024_S1x1024_8_0 : ∀ a, (![8, 0] : Fin 2 → Nat) a + S1x1024.size a ≤ S16x1024.size a
  slices_S16_o8_S1 : S16.Slices ![8] S1
  inb_S4096x16_S4096x1_0_8 : ∀ a, (![0, 8] : Fin 2 → Nat) a + S4096x1.size a ≤ S4096x16.size a
  slices_S4096x16_o0_9_S4096x1 : S4096x16.Slices ![0, 9] S4096x1
  inb_S16x1024_S1x1024_9_0 : ∀ a, (![9, 0] : Fin 2 → Nat) a + S1x1024.size a ≤ S16x1024.size a
  slices_S16_o9_S1 : S16.Slices ![9] S1
  inb_S4096x16_S4096x1_0_9 : ∀ a, (![0, 9] : Fin 2 → Nat) a + S4096x1.size a ≤ S4096x16.size a
  slices_S4096x16_o0_10_S4096x1 : S4096x16.Slices ![0, 10] S4096x1
  inb_S16x1024_S1x1024_10_0 : ∀ a, (![10, 0] : Fin 2 → Nat) a + S1x1024.size a ≤ S16x1024.size a
  slices_S16_o10_S1 : S16.Slices ![10] S1
  inb_S4096x16_S4096x1_0_10 : ∀ a, (![0, 10] : Fin 2 → Nat) a + S4096x1.size a ≤ S4096x16.size a
  slices_S4096x16_o0_11_S4096x1 : S4096x16.Slices ![0, 11] S4096x1
  inb_S16x1024_S1x1024_11_0 : ∀ a, (![11, 0] : Fin 2 → Nat) a + S1x1024.size a ≤ S16x1024.size a
  slices_S16_o11_S1 : S16.Slices ![11] S1
  inb_S4096x16_S4096x1_0_11 : ∀ a, (![0, 11] : Fin 2 → Nat) a + S4096x1.size a ≤ S4096x16.size a
  slices_S4096x16_o0_12_S4096x1 : S4096x16.Slices ![0, 12] S4096x1
  inb_S16x1024_S1x1024_12_0 : ∀ a, (![12, 0] : Fin 2 → Nat) a + S1x1024.size a ≤ S16x1024.size a
  slices_S16_o12_S1 : S16.Slices ![12] S1
  inb_S4096x16_S4096x1_0_12 : ∀ a, (![0, 12] : Fin 2 → Nat) a + S4096x1.size a ≤ S4096x16.size a
  slices_S4096x16_o0_13_S4096x1 : S4096x16.Slices ![0, 13] S4096x1
  inb_S16x1024_S1x1024_13_0 : ∀ a, (![13, 0] : Fin 2 → Nat) a + S1x1024.size a ≤ S16x1024.size a
  slices_S16_o13_S1 : S16.Slices ![13] S1
  inb_S4096x16_S4096x1_0_13 : ∀ a, (![0, 13] : Fin 2 → Nat) a + S4096x1.size a ≤ S4096x16.size a
  slices_S4096x16_o0_14_S4096x1 : S4096x16.Slices ![0, 14] S4096x1
  inb_S16x1024_S1x1024_14_0 : ∀ a, (![14, 0] : Fin 2 → Nat) a + S1x1024.size a ≤ S16x1024.size a
  slices_S16_o14_S1 : S16.Slices ![14] S1
  inb_S4096x16_S4096x1_0_14 : ∀ a, (![0, 14] : Fin 2 → Nat) a + S4096x1.size a ≤ S4096x16.size a
  slices_S4096x16_o0_15_S4096x1 : S4096x16.Slices ![0, 15] S4096x1
  inb_S16x1024_S1x1024_15_0 : ∀ a, (![15, 0] : Fin 2 → Nat) a + S1x1024.size a ≤ S16x1024.size a
  slices_S16_o15_S1 : S16.Slices ![15] S1
  inb_S4096x16_S4096x1_0_15 : ∀ a, (![0, 15] : Fin 2 → Nat) a + S4096x1.size a ≤ S4096x16.size a
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S1048576x16.size a
  hwx0_0 : ∀ i : grid0.Coords, EltTy.bits .i32 = 32 ∨ (Rect.block (s := S1048576x16) S4096x16.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S1048576x16.size a
  hwx0_3 : ∀ i : grid0.Coords, EltTy.bits .f32 = 32 ∨ (Rect.block (s := S1048576x16) S4096x16.size (cc0_transform_3 i) (hinb0_3 i)).WholeWords (EltTy.packing .f32)

variable [Facts₀]

def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x16 : Shape := ⟨2, ![1048576, 16]⟩
abbrev S16x1024 : Shape := ⟨2, ![16, 1024]⟩
abbrev S16 : Shape := ⟨1, ![16]⟩
abbrev S1x16 : Shape := ⟨2, ![1, 16]⟩
abbrev S_ : Shape := ⟨0, ![]⟩
abbrev S1048576x16x1 : Shape := ⟨3, ![1048576, 16, 1]⟩
abbrev S1048576x16x2 : Shape := ⟨3, ![1048576, 16, 2]⟩

abbrev nBuf : Space → Nat
  | .hbm => 27
  | .vmem => 0
  | .smem => 0
  | _ => 0

abbrev bufTy : (tb : Table) → Fin (tcTables nBuf tb) → BufTy
  | .hbm, ⟨0, _⟩ => ⟨S1048576x16, .i32⟩
  | .hbm, ⟨1, _⟩ => ⟨S16x1024, .f32⟩
  | .hbm, ⟨2, _⟩ => ⟨S16, .f32⟩
  | .hbm, ⟨3, _⟩ => ⟨S16, .i32⟩
  | .hbm, ⟨4, _⟩ => ⟨S1x16, .i32⟩
  | .hbm, ⟨5, _⟩ => ⟨S_, .i32⟩
  | .hbm, ⟨6, _⟩ => ⟨S1x16, .i32⟩
  | .hbm, ⟨7, _⟩ => ⟨S1x16, .i1⟩
  | .hbm, ⟨8, _⟩ => ⟨S_, .i32⟩
  | .hbm, ⟨9, _⟩ => ⟨S1x16, .i32⟩
  | .hbm, ⟨10, _⟩ => ⟨S1x16, .i32⟩
  | .hbm, ⟨11, _⟩ => ⟨S1x16, .i32⟩
  | .hbm, ⟨12, _⟩ => ⟨S_, .i32⟩
  | .hbm, ⟨13, _⟩ => ⟨S1048576x16, .i32⟩
  | .hbm, ⟨14, _⟩ => ⟨S1048576x16, .i1⟩
  | .hbm, ⟨15, _⟩ => ⟨S_, .i32⟩
  | .hbm, ⟨16, _⟩ => ⟨S1048576x16, .i32⟩
  | .hbm, ⟨17, _⟩ => ⟨S1048576x16, .i32⟩
  | .hbm, ⟨18, _⟩ => ⟨S1048576x16, .i32⟩
  | .hbm, ⟨19, _⟩ => ⟨S1048576x16, .i32⟩
  | .hbm, ⟨20, _⟩ => ⟨S1048576x16x1, .i32⟩
  | .hbm, ⟨21, _⟩ => ⟨S1048576x16x1, .i32⟩
  | .hbm, ⟨22, _⟩ => ⟨S1048576x16x2, .i32⟩
  | .hbm, ⟨23, _⟩ => ⟨S1048576x16, .f32⟩
  | .hbm, ⟨24, _⟩ => ⟨S1x16, .f32⟩
  | .hbm, ⟨25, _⟩ => ⟨S1048576x16, .f32⟩
  | .hbm, ⟨26, _⟩ => ⟨S1048576x16, .f32⟩
  | _, _ => ⟨S1048576x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S_S1x16 : S_.BroadcastsInDim S1x16 (![] : Fin 0 → Fin S1x16.rank)
  bcast_S_S1048576x16 : S_.BroadcastsInDim S1048576x16 (![] : Fin 0 → Fin S1048576x16.rank)
  bcast_S1x16_S1048576x16_0_1 : S1x16.BroadcastsInDim S1048576x16 (![0, 1] : Fin 2 → Fin S1048576x16.rank)
  bcast_S1048576x16_S1048576x16x1_0_1 : S1048576x16.BroadcastsInDim S1048576x16x1 (![0, 1] : Fin 2 → Fin S1048576x16x1.rank)
  concatenates_S1048576x16x1_S1048576x16x1_S1048576x16x2_d2 : Shape.Concatenates [S1048576x16x1, S1048576x16x1] S1048576x16x2 2
  gather_S16x1024_S1048576x16x2_S1048576x16_n_01_n_n_01_2_11_wf : GatherDims.WF S16x1024 S1048576x16x2 S1048576x16 [] [0, 1] [] [0, 1] [] 2 ![1, 1]

variable [Facts₀]

def gather_S16x1024_S1048576x16x2_S1048576x16_n_01_n_n_01_2_11 : GatherDims S16x1024 S1048576x16x2 S1048576x16 where
  offsetDims := []
  collapsedSliceDims := [0, 1]
  operandBatchingDims := []
  startIndicesBatchingDims := []
  startIndexMap := [0, 1]
  indexVectorDim := 2
  sliceSizes := ![1, 1]
  wf := gather_S16x1024_S1048576x16x2_S1048576x16_n_01_n_n_01_2_11_wf

class Facts : Prop extends Facts₀ where

variable [Facts]
-- ==== Proof.OneHot.lean ====
/-
  A one-hot row against a table row, over the extended reals.

  A word `x` with `0 ≤ x < 1024` is compared with every class number `base + k`, `k < 256`, of one quarter of the
  classes; the comparison, as `1` or `0`, multiplies the table row's entry at that class and the products are summed.
  At most one class number equals `x`, so the quarter's sum is the row's entry at `x` when `x` lies in the quarter and
  `0` otherwise (`quarter_sum`): `0 · r = 0` for every extended real `r`, infinite ones included, so no finiteness of
  the row is needed. The four quarters, added one after the other to `0`, therefore give the row's entry at `x`
  (`four_quarters`): exactly one quarter holds `x`.
-/
import Idealize.ShloMosaic.PureOps.Ideal

open scoped BigOperators

namespace Cert.OneHot

/-- A 32-bit word equals the word sum of two small numbers exactly when its value is their sum. -/
theorem eq_ofNat_add_iff (x : BitVec 32) (k base : ℕ) (h : base + k < 4294967296) :
    x = BitVec.ofNat 32 k + BitVec.ofNat 32 base ↔ x.toNat = base + k := by
  constructor
  · rintro rfl
    rw [BitVec.toNat_add, BitVec.toNat_ofNat, BitVec.toNat_ofNat]
    omega
  · intro hx
    apply BitVec.eq_of_toNat_eq
    rw [BitVec.toNat_add, BitVec.toNat_ofNat, BitVec.toNat_ofNat]
    omega

/-- ONE QUARTER: the one-hot comparison of `x` with the 256 class numbers from `base` on, times the row's entries there,
    sums to the row's entry at `x` if `x` is one of those class numbers, and to `0` if not. -/
theorem quarter_sum (x : BitVec 32) (row : Fin 1024 → EReal) (base : ℕ) (hb : base + 256 ≤ 1024) (hx : x.toNat < 1024) :
    ∑ k : Fin 256, (if x = BitVec.ofNat 32 k.val + BitVec.ofNat 32 base then (1 : EReal) else 0)
        * row ⟨base + k.val, by have := k.isLt; omega⟩
      = if base ≤ x.toNat ∧ x.toNat < base + 256 then row ⟨x.toNat, hx⟩ else 0 := by
  split_ifs with h
  · obtain ⟨h1, h2⟩ := h
    rw [Finset.sum_eq_single (⟨x.toNat - base, by omega⟩ : Fin 256)]
    · rw [if_pos ((eq_ofNat_add_iff x _ base (by show base + (x.toNat - base) < _; omega)).2
        (by show x.toNat = base + (x.toNat - base); omega)), one_mul]
      congr 1
      apply Fin.ext
      show base + (x.toNat - base) = x.toNat
      omega
    · intro k _ hk
      have hkl := k.isLt
      rw [if_neg, zero_mul]
      intro he
      have := (eq_ofNat_add_iff x k.val base (by omega)).1 he
      apply hk
      apply Fin.ext
      show k.val = x.toNat - base
      omega
    · intro hn
      exact absurd (Finset.mem_univ _) hn
  · apply Finset.sum_eq_zero
    intro k _
    have hkl := k.isLt
    rw [if_neg, zero_mul]
    intro he
    have := (eq_ofNat_add_iff x k.val base (by omega)).1 he
    apply h
    constructor <;> omega

/-- THE FOUR QUARTERS, added one after the other to `0`, give the row's entry at `x`. -/
theorem four_quarters (x : BitVec 32) (row : Fin 1024 → EReal) (hx : x.toNat < 1024) :
    ((((0 : EReal)
      + ∑ k : Fin 256, (if x = BitVec.ofNat 32 k.val + BitVec.ofNat 32 0 then (1 : EReal) else 0)
          * row ⟨0 + k.val, by have := k.isLt; omega⟩)
      + ∑ k : Fin 256, (if x = BitVec.ofNat 32 k.val + BitVec.ofNat 32 256 then (1 : EReal) else 0)
          * row ⟨256 + k.val, by have := k.isLt; omega⟩)
      + ∑ k : Fin 256, (if x = BitVec.ofNat 32 k.val + BitVec.ofNat 32 512 then (1 : EReal) else 0)
          * row ⟨512 + k.val, by have := k.isLt; omega⟩)
      + ∑ k : Fin 256, (if x = BitVec.ofNat 32 k.val + BitVec.ofNat 32 768 then (1 : EReal) else 0)
          * row ⟨768 + k.val, by have := k.isLt; omega⟩
      = row ⟨x.toNat, hx⟩ := by
  rw [quarter_sum x row 0 (by omega) hx, quarter_sum x row 256 (by omega) hx, quarter_sum x row 512 (by omega) hx,
    quarter_sum x row 768 (by omega) hx]
  split_ifs <;> first | (exfalso; omega) | simp

end Cert.OneHot
-- ==== Proof.Column.lean ====
/-
  ONE FEATURE'S COLUMN of the kernel's body, as a term and read at a row.

  For feature `f` the body takes column `f` of the block of class numbers (`[4096, 1]` words), row `f` of the table
  (`[1, 1024]`) and entry `f` of the bias vector, and stores
      ((((0 + Q₀) + Q₂₅₆) + Q₅₁₂) + Q₇₆₈) + bias[f]
  where `Q_b`, a `[4096, 256] × [256, 1]` matrix product into a zero accumulator, multiplies the one-hot matrix
  `(x[p] = b + k)` as `1.0` / `0.0` with the table row's entries `b … b + 255` as a column. `column f …` is that term
  with the feature's number `f` a parameter (the sixteen unrolled copies of the body differ in nothing else).

  Read at row `p` at the exact instance, `Q_b` is the sum over `k < 256` of `(if x[p] = b + k then 1 else 0) · row[b + k]`
  (`quarter_apply`: the product as a sum over the contracted axis, each factor read through its layout operations),
  so for a class number `0 ≤ x[p] < 1024` the stored value is `row[x[p]] + bias[f]` (`column_apply`, by the
  four-quarters lemma).
-/
import proofs.«415136_j18210661335091_2_alg».proof.KernelIdeal
import proofs.«415136_j18210661335091_2_alg».proof.Proof.OneHot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StableHlo.Predicate

noncomputable section

open scoped BigOperators

namespace Cert.KernelIdeal.Column

open Cert.KernelIdeal Idealize.ShloMosaic Idealize.ShloMosaic.ValueIdx

/-! ## A plain matrix product into a zero accumulator, read at an entry -/

/-- An `m × k` by `k × n` `tpu.matmul` into the zero splat, at the exact instance, read at `(a, b)`: the sum over the
    contracted coordinate `c` of `A (a, c) · B (c, b)`. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The layout operations of the body, read at an index -/

/-- A `[4096, 1]` column broadcast along the lanes reads, at `(p, k)`, the column at row `p`. -/
theorem lanes_of_column {α : Type} (v : S4096x1.Idx → α) (h : S4096x1.Broadcasts S4096x256) (p : Fin 4096) (k : Fin 256) :
    broadcastTo S4096x256 v h (ix2 p k) = v (ix2 p (0 : Fin 1)) :=
  broadcastTo_apply v h (ix2 p k) (ix2 p (0 : Fin 1)) fun ax => by
    match ax with
    | ⟨0, _⟩ => show p.val = if (4096 : Nat) = 1 then 0 else p.val; rw [if_neg (by decide)]
    | ⟨1, _⟩ => show 0 = if (1 : Nat) = 1 then 0 else k.val; rw [if_pos rfl]

/-- A `[256]` vector cast to a `[256, 1]` column reads, at `(k, 0)`, the vector at `k`. -/
theorem column_of_vector {α : Type} (v : S256.Idx → α) (h : S256.ShapeCasts S256x1) (k : Fin 256) :
    shapeCast S256x1 v h (ix2 k (0 : Fin 1)) = v (ix1 k) :=
  shapeCast_apply v h _ _ (by
    rw [Shape.rowMajor_val_one, Shape.rowMajor_val_two]
    show k.val = k.val * 1 + 0
    omega)

/-- The one-hot entry: the comparison of two words, selecting `1.0` or `0.0`, is `1` or `0` at the exact instance. -/
theorem onehot_entry (x y : BitVec 32) :
    Scalar.select (IntOp.cmpi .eq x y) (Scalar.ofBits (F := Ideal) .f32 0x3F800000#32) (Scalar.ofBits (F := Ideal) .f32 0x00000000#32)
      = if x = y then (1 : EReal) else 0 := by
  show Scalar.select (IntOp.cmpi .eq x y) (Ideal.ofBits .f32 0x3F800000#32) (Ideal.ofBits .f32 0x00000000#32) = _
  unfold Scalar.select
  rw [Ideal.ofBits_one_f32, Ideal.ofBits_zero_f32]
  by_cases h : x = y
  · rw [if_pos h]
    exact if_pos (StableHlo.Predicate.cmpi_eq_iff.2 h)
  · rw [if_neg h]
    exact if_neg (fun hc => h (StableHlo.Predicate.cmpi_eq_iff.1 hc))

variable [Facts]
open Facts₀ Facts

/-! ## One quarter of the classes -/

/-- The body's product for the 256 classes from `base` on: the one-hot matrix of the class column `xcol` against the
    lane numbers plus `base`, times the table row's entries `base … base + 255` as a column, into the zero splat. -/
def quarter {F : FTy → Type} [FloatOps F] (xcol : IVec S4096x1 32) (row : FVec F S1024 .f32) (base : Nat)
    (hs : S1024.Slices ![base] S256) : FVec F S4096x1 .f32 :=
  matmul dot_S4096x256_S256x1_S4096x1_1_0_0_1_n_n none
    (select
      (cmpi .eq (broadcastTo S4096x256 xcol broadcasts_S4096x1_S4096x256)
        (broadcastTo S4096x256 (addi (iota .tc S1x256 32 [1] iota_S1x256_d1_w32) (broadcast S1x256 (BitVec.ofNat 32 base)))
          broadcasts_S1x256_S4096x256))
      (broadcast S4096x256 (Scalar.ofBits .f32 0x3F800000#32)) (broadcast S4096x256 (Scalar.ofBits .f32 0x00000000#32)))
    (shapeCast S256x1 (extractStridedSlice S256 ![base] row hs) shapeCasts_S256_S256x1)
    (constant S4096x1 .f32 0x00000000#32)

/-- A QUARTER READ AT ROW `p`: the sum over the 256 classes of the one-hot entry times the row's entry. -/
theorem quarter_apply (xcol : IVec S4096x1 32) (row : FVec Ideal S1024 .f32) (row' : Fin 1024 → EReal)
    (hrow : ∀ i : Fin 1024, row (ix1 i) = row' i) (base : Nat) (hb : base + 256 ≤ 1024)
    (hs : S1024.Slices ![base] S256) (p : Fin 4096) :
    quarter xcol row base hs (ix2 p (0 : Fin 1))
      = ∑ k : Fin 256, (if xcol (ix2 p (0 : Fin 1)) = BitVec.ofNat 32 k.val + BitVec.ofNat 32 base then (1 : EReal) else 0)
          * row' ⟨base + k.val, by have := k.isLt; omega⟩ := by
  unfold quarter
  refine (matmul_plain_zero_apply dot_S4096x256_S256x1_S4096x1_1_0_0_1_n_n_wf none _ _ p (0 : Fin 1)).trans ?_
  refine Finset.sum_congr rfl fun k _ => ?_
  have hk := k.isLt
  congr 1
  · refine (select_apply _ _ _ _).trans ?_
    show Scalar.select (IntOp.cmpi .eq (broadcastTo S4096x256 xcol broadcasts_S4096x1_S4096x256 (ix2 p k))
        (broadcastTo S4096x256 (addi (iota .tc S1x256 32 [1] iota_S1x256_d1_w32) (broadcast S1x256 (BitVec.ofNat 32 base)))
          broadcasts_S1x256_S4096x256 (ix2 p k)))
      (Scalar.ofBits (F := Ideal) .f32 0x3F800000#32) (Scalar.ofBits (F := Ideal) .f32 0x00000000#32) = _
    rw [lanes_of_column, broadcastTo_1b_ab_apply, onehot_entry]
    show (if xcol (ix2 p (0 : Fin 1)) = IntOp.addi (iota .tc S1x256 32 [1] iota_S1x256_d1_w32 (ix2 (0 : Fin 1) k)) (BitVec.ofNat 32 base)
      then (1 : EReal) else 0) = _
    rw [iota_single_apply]
    rfl
  · rw [column_of_vector]
    refine (extractStridedSlice_apply ![base] row hs (ix1 k) (ix1 ⟨base + k.val, by omega⟩) fun ax => ?_).trans (hrow _)
    match ax with
    | ⟨0, _⟩ => rfl

/-! ## The column -/

/-- Feature `f`'s stored column, as the body computes it from the block of class numbers `v0`, the loaded table row `v4`
    and the bias vector `v1`: the four quarters added one after the other to the zero splat, then the bias entry. -/
def column {F : FTy → Type} [FloatOps F] (f : Nat) (hsx : S4096x16.Slices ![0, f] S4096x1) (hsg : S16.Slices ![f] S1)
    (v0 : Vec F S4096x16 .i32) (v4 : Vec F S1x1024 .f32) (v1 : Vec F S16 .f32) : FVec F S4096x1 .f32 :=
  addf
    (addf
      (addf
        (addf
          (addf (broadcast S4096x1 (Scalar.ofBits .f32 0x00000000#32))
            (quarter (extractStridedSlice S4096x1 ![0, f] v0 hsx) (shapeCast S1024 v4 shapeCasts_S1x1024_S1024) 0 slices_S1024_o0_S256))
          (quarter (extractStridedSlice S4096x1 ![0, f] v0 hsx) (shapeCast S1024 v4 shapeCasts_S1x1024_S1024) 256 slices_S1024_o256_S256))
        (quarter (extractStridedSlice S4096x1 ![0, f] v0 hsx) (shapeCast S1024 v4 shapeCasts_S1x1024_S1024) 512 slices_S1024_o512_S256))
      (quarter (extractStridedSlice S4096x1 ![0, f] v0 hsx) (shapeCast S1024 v4 shapeCasts_S1x1024_S1024) 768 slices_S1024_o768_S256))
    (broadcast S4096x1 (extractAt ![0] (extractStridedSlice S1 ![f] v1 hsg) inpos_S1_p0))

/-- THE COLUMN READ AT ROW `p`, for a class number in range: the table row's entry at the class number, plus the bias. -/
theorem column_apply (f : Fin 16) (hsx : S4096x16.Slices ![0, f.val] S4096x1) (hsg : S16.Slices ![f.val] S1)
    (v0 : Vec Ideal S4096x16 .i32) (v4 : Vec Ideal S1x1024 .f32) (v1 : Vec Ideal S16 .f32) (p : Fin 4096)
    (hin : (v0 (ix2 p f)).toNat < 1024) :
    column f.val hsx hsg v0 v4 v1 (ix2 p (0 : Fin 1))
      = v4 (ix2 (0 : Fin 1) (⟨(v0 (ix2 p f)).toNat, hin⟩ : Fin 1024)) + v1 (ix1 f) := by
  have hx : extractStridedSlice S4096x1 ![0, f.val] v0 hsx (ix2 p (0 : Fin 1)) = v0 (ix2 p f) :=
    slice2_axis1_apply f.val v0 hsx p (0 : Fin 1) f (by simp)
  have hg : extractAt ![0] (extractStridedSlice S1 ![f.val] v1 hsg) inpos_S1_p0 = v1 (ix1 f) := by
    unfold extractAt
    refine extractStridedSlice_apply ![f.val] v1 hsg _ (ix1 f) fun ax => ?_
    match ax with
    | ⟨0, _⟩ => rfl
  have hrow : ∀ i : Fin 1024, shapeCast S1024 v4 shapeCasts_S1x1024_S1024 (ix1 i) = v4 (ix2 (0 : Fin 1) i) :=
    fun i => shapeCast_1a_a_apply v4 shapeCasts_S1x1024_S1024 i
  unfold column
  simp only [addf_apply, broadcast_apply]
  rw [quarter_apply _ _ (fun i => v4 (ix2 (0 : Fin 1) i)) hrow 0 (by omega),
    quarter_apply _ _ (fun i => v4 (ix2 (0 : Fin 1) i)) hrow 256 (by omega),
    quarter_apply _ _ (fun i => v4 (ix2 (0 : Fin 1) i)) hrow 512 (by omega),
    quarter_apply _ _ (fun i => v4 (ix2 (0 : Fin 1) i)) hrow 768 (by omega), hx, hg]
  show ((((Ideal.ofBits .f32 0x00000000#32 + _) + _) + _) + _) + _ = _
  rw [Ideal.ofBits_zero_f32]
  exact congrArg (· + v1 (ix1 f)) (Cert.OneHot.four_quarters (v0 (ix2 p f)) (fun i => v4 (ix2 (0 : Fin 1) i)) hin)

end Cert.KernelIdeal.Column

end
-- ==== Proof.Pieces.lean ====
/-
  THE BODY'S SIXTEEN STORES, FEATURE BY FEATURE.

  The body stores column `f` of its `[4096, 16]` output block, for `f = 0 … 15`, each store's value the same arithmetic
  of column `f` of the class-number block, row `f` of the table and entry `f` of the bias vector: the term
  `Column.column f …`. The body's sixteen unrolled copies are cut into payloads at positions that have nothing to do with
  the features, so the sixteen payloads are sixteen different compositions of the same operations; each unfolds to
  `column f` at its feature (`out_eq_columns`, by unfolding alone).
-/
import proofs.«415136_j18210661335091_2_alg».proof.Proof.Gen.KernelIdeal.Frame
import proofs.«415136_j18210661335091_2_alg».proof.Proof.Column

set_option maxRecDepth 16384

noncomputable section

namespace Cert.KernelIdeal.Block

open Cert.KernelIdeal Cert.KernelIdeal.Gen Cert.KernelIdeal.Column Idealize.ShloMosaic

variable {F : FTy → Type} [FloatOps F]

set_option maxHeartbeats 4000000 in
/-- What the body leaves in its output block: the sixteen columns, last stored first. -/
theorem out_eq_columns (x0 : Vec F S4096x16 .i32) (x1 : Vec F S16x1024 .f32) (x2 : Vec F S16 .f32) :
    out0_3 x0 x1 x2 = View.canon [
      ⟨r0_33, column 15 Facts₀.slices_S4096x16_o0_15_S4096x1 Facts₀.slices_S16_o15_S1 (View.ld x0 r0_0) (View.ld x1 r0_32) (View.ld x2 r0_1)⟩,
      ⟨r0_31, column 14 Facts₀.slices_S4096x16_o0_14_S4096x1 Facts₀.slices_S16_o14_S1 (View.ld x0 r0_0) (View.ld x1 r0_30) (View.ld x2 r0_1)⟩,
      ⟨r0_29, column 13 Facts₀.slices_S4096x16_o0_13_S4096x1 Facts₀.slices_S16_o13_S1 (View.ld x0 r0_0) (View.ld x1 r0_28) (View.ld x2 r0_1)⟩,
      ⟨r0_27, column 12 Facts₀.slices_S4096x16_o0_12_S4096x1 Facts₀.slices_S16_o12_S1 (View.ld x0 r0_0) (View.ld x1 r0_26) (View.ld x2 r0_1)⟩,
      ⟨r0_25, column 11 Facts₀.slices_S4096x16_o0_11_S4096x1 Facts₀.slices_S16_o11_S1 (View.ld x0 r0_0) (View.ld x1 r0_24) (View.ld x2 r0_1)⟩,
      ⟨r0_23, column 10 Facts₀.slices_S4096x16_o0_10_S4096x1 Facts₀.slices_S16_o10_S1 (View.ld x0 r0_0) (View.ld x1 r0_22) (View.ld x2 r0_1)⟩,
      ⟨r0_21, column 9 Facts₀.slices_S4096x16_o0_9_S4096x1 Facts₀.slices_S16_o9_S1 (View.ld x0 r0_0) (View.ld x1 r0_20) (View.ld x2 r0_1)⟩,
      ⟨r0_19, column 8 Facts₀.slices_S4096x16_o0_8_S4096x1 Facts₀.slices_S16_o8_S1 (View.ld x0 r0_0) (View.ld x1 r0_18) (View.ld x2 r0_1)⟩,
      ⟨r0_17, column 7 Facts₀.slices_S4096x16_o0_7_S4096x1 Facts₀.slices_S16_o7_S1 (View.ld x0 r0_0) (View.ld x1 r0_16) (View.ld x2 r0_1)⟩,
      ⟨r0_15, column 6 Facts₀.slices_S4096x16_o0_6_S4096x1 Facts₀.slices_S16_o6_S1 (View.ld x0 r0_0) (View.ld x1 r0_14) (View.ld x2 r0_1)⟩,
      ⟨r0_13, column 5 Facts₀.slices_S4096x16_o0_5_S4096x1 Facts₀.slices_S16_o5_S1 (View.ld x0 r0_0) (View.ld x1 r0_12) (View.ld x2 r0_1)⟩,
      ⟨r0_11, column 4 Facts₀.slices_S4096x16_o0_4_S4096x1 Facts₀.slices_S16_o4_S1 (View.ld x0 r0_0) (View.ld x1 r0_10) (View.ld x2 r0_1)⟩,
      ⟨r0_9, column 3 Facts₀.slices_S4096x16_o0_3_S4096x1 Facts₀.slices_S16_o3_S1 (View.ld x0 r0_0) (View.ld x1 r0_8) (View.ld x2 r0_1)⟩,
      ⟨r0_7, column 2 Facts₀.slices_S4096x16_o0_2_S4096x1 Facts₀.slices_S16_o2_S1 (View.ld x0 r0_0) (View.ld x1 r0_6) (View.ld x2 r0_1)⟩,
      ⟨r0_5, column 1 Facts₀.slices_S4096x16_o0_1_S4096x1 Facts₀.slices_S16_o1_S1 (View.ld x0 r0_0) (View.ld x1 r0_4) (View.ld x2 r0_1)⟩,
      ⟨r0_3, column 0 Facts₀.slices_S4096x16_o0_0_S4096x1 Facts₀.slices_S16_o0_S1 (View.ld x0 r0_0) (View.ld x1 r0_2) (View.ld x2 r0_1)⟩] := rfl

end Cert.KernelIdeal.Block

end
-- ==== Proof.Spec.lean ====
/-
  THE RESULT AS ONE FUNCTION OF THE ARGUMENT ARRAYS.

  Entry `(r, f)` of the result is `class_bias[f, inputs[r, f]] + global_bias[f]`: the table's row for feature `f` at the
  row's class number for that feature, plus the feature's bias. `lookup` states it for an index array of any number of
  rows (the whole `[1048576, 16]` array, and one `[4096, 16]` block of it) with the class number clamped into the
  table's `1024` classes, so that the function is total; for a class number in range the clamp does nothing
  (`classOf_of_lt`).
-/
import Idealize.ShloMosaic.PureOps.Ideal
import Idealize.ShloMosaic.Lib.ValueIdx

noncomputable section

namespace Cert.Spec

open Idealize.ShloMosaic Idealize.ShloMosaic.ValueIdx

/-- A class-number word as one of the table's 1024 classes (clamped from above). -/
def classOf (w : BitVec 32) : Fin 1024 := ⟨min w.toNat 1023, by omega⟩

/-- A class number in range is itself. -/
theorem classOf_of_lt (w : BitVec 32) (h : w.toNat < 1024) : classOf w = ⟨w.toNat, h⟩ :=
  Fin.ext (by show min w.toNat 1023 = w.toNat; omega)

/-- THE RESULT: the table's entry at each row's feature and class number, plus the feature's bias. -/
def lookup {n : Nat} (x : (⟨2, ![n, 16]⟩ : Shape).Idx → BitVec 32) (tbl : (⟨2, ![16, 1024]⟩ : Shape).Idx → EReal)
    (bias : (⟨1, ![16]⟩ : Shape).Idx → EReal) : (⟨2, ![n, 16]⟩ : Shape).Idx → EReal :=
  fun i => tbl (ix2 (i 1) (classOf (x i))) + bias (ix1 (i 1))

/-- Read at the entry `(r, f)`. -/
theorem lookup_ix2 {n : Nat} (x : (⟨2, ![n, 16]⟩ : Shape).Idx → BitVec 32) (tbl : (⟨2, ![16, 1024]⟩ : Shape).Idx → EReal)
    (bias : (⟨1, ![16]⟩ : Shape).Idx → EReal) (r : Fin n) (f : Fin 16) :
    lookup x tbl bias (ix2 r f) = tbl (ix2 f (classOf (x (ix2 r f)))) + bias (ix1 f) := rfl

end Cert.Spec

end
-- ==== Proof.KernelValue.lean ====
/-
  WHAT THE KERNEL'S RESULT ARRAY HOLDS.

  Grid point `t` stages rows `4096·t … 4096·t + 4095` of the class numbers, the whole table and the whole bias vector, and
  its body stores, column by column, `table[f, x[p, f]] + bias[f]` into its output block (Column.lean, Pieces.lean): for
  class numbers in range the block is `Spec.lookup` of the point's input blocks (`out_apply`). The class-number block is
  the array's rows from `4096·t`, the other two blocks are their arrays, so what point `t` writes back is block `t` of
  `Spec.lookup` of the three argument arrays (`flushed_eq`). The 256 blocks tile the `[1048576, 16]` result (row `r` is
  in block `r / 4096`), so the array ends holding `Spec.lookup` of the arguments (`final`, `run`).
-/
import proofs.«415136_j18210661335091_2_alg».proof.Proof.Gen.KernelIdeal.Value
import proofs.«415136_j18210661335091_2_alg».proof.Proof.Pieces
import proofs.«415136_j18210661335091_2_alg».proof.Proof.Spec
import Idealize.ShloMosaic.Lib.ValueIdx
import Idealize.ShloMosaic.Lib.Pipeline.Value

set_option maxRecDepth 16384

noncomputable section

namespace Cert.KernelIdeal.KernelValue

open Cert.KernelIdeal Cert.KernelIdeal.Gen Cert.KernelIdeal.Column Cert.KernelIdeal.Block Cert.Spec
open Idealize.ShloMosaic Idealize.ShloMosaic.TcCoe Idealize.SL.Sem Idealize.ShloMosaic.ValueIdx
open Idealize.ShloMosaic.Pipeline (Dat)

/-! ## One stored column is the block's lookup along its rectangle -/

theorem zeros2 : (![0, 0] : Fin 2 → Nat) = fun _ => 0 := funext fun a => by fin_cases a <;> rfl
theorem zeros1 : (![0] : Fin 1 → Nat) = fun _ => 0 := funext fun a => by fin_cases a <;> rfl

/-- Feature `f`'s stored column, at its local index, is the lookup of the point's blocks at the block index under it. -/
theorem piece_eq (f : Nat) (hf : f < 16)
    (inb : ∀ a, (![0, f] : Fin 2 → Nat) a + S4096x1.size a ≤ S4096x16.size a)
    (inbr : ∀ a, (![f, 0] : Fin 2 → Nat) a + S1x1024.size a ≤ S16x1024.size a)
    (hsx : S4096x16.Slices ![0, f] S4096x1) (hsg : S16.Slices ![f] S1)
    (b0 : Vec Ideal S4096x16 .i32) (hb : ∀ y, (b0 y).toNat < 1024) (b1 : Vec Ideal S16x1024 .f32) (b2 : Vec Ideal S16 .f32)
    (x : S4096x1.Idx) :
    column f hsx hsg (View.ld b0 r0_0) (View.ld b1 (Rect.unit (s := S16x1024) ![f, 0] S1x1024.size inbr)) (View.ld b2 r0_1) x
      = lookup b0 b1 b2 ((Rect.unit (s := S4096x16) ![0, f] S4096x1.size inb).emb x) := by
  obtain ⟨p, z, rfl⟩ : ∃ (p : Fin 4096) (z : Fin 1), x = ix2 p z := ⟨x 0, x 1, eq_ix2 x⟩
  obtain rfl : z = 0 := Subsingleton.elim _ _
  have e : (Rect.unit (s := S4096x16) ![0, f] S4096x1.size inb).emb (ix2 p (0 : Fin 1)) = ix2 p (⟨f, hf⟩ : Fin 16) := by
    funext a; apply Fin.ext
    match a with
    | ⟨0, _⟩ => show 0 + 1 * p.val = p.val; omega
    | ⟨1, _⟩ => show f + 1 * 0 = f; omega
  rw [e, lookup_ix2, classOf_of_lt _ (hb _)]
  simp only [View.ld_unit_zero (S := S4096x16) zeros2, View.ld_unit_zero (S := S16) zeros1]
  refine (column_apply ⟨f, hf⟩ hsx hsg b0 _ b2 p (hb _)).trans ?_
  congr 1
  show b1 ((Rect.unit (s := S16x1024) ![f, 0] S1x1024.size inbr).idx (ix2 (0 : Fin 1) _)) = b1 (ix2 (⟨f, hf⟩ : Fin 16) _)
  congr 1
  funext a; apply Fin.ext
  match a with
  | ⟨0, _⟩ => show f + 1 * 0 = f; omega
  | ⟨1, _⟩ => show 0 + 1 * (b0 (ix2 p (⟨f, hf⟩ : Fin 16))).toNat = (b0 (ix2 p (⟨f, hf⟩ : Fin 16))).toNat; omega

/-- THE BODY'S OUTPUT BLOCK, for class numbers in range, is the lookup of the point's input blocks. -/
theorem out_apply (b0 : Vec Ideal S4096x16 .i32) (hb : ∀ y, (b0 y).toNat < 1024) (b1 : Vec Ideal S16x1024 .f32)
    (b2 : Vec Ideal S16 .f32) (y : S4096x16.Idx) : out0_3 b0 b1 b2 y = lookup b0 b1 b2 y := by
  rw [out_eq_columns]
  refine View.canon_apply_of_pieces (Val := Elt Ideal) (S := S4096x16) (e := .f32) (lookup b0 b1 b2) _ ?_ y
    (cover0_3 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact piece_eq 15 (by omega) Facts₀.inb_S4096x16_S4096x1_0_15 Facts₀.inb_S16x1024_S1x1024_15_0
      Facts₀.slices_S4096x16_o0_15_S4096x1 Facts₀.slices_S16_o15_S1 b0 hb b1 b2
  · exact piece_eq 14 (by omega) Facts₀.inb_S4096x16_S4096x1_0_14 Facts₀.inb_S16x1024_S1x1024_14_0
      Facts₀.slices_S4096x16_o0_14_S4096x1 Facts₀.slices_S16_o14_S1 b0 hb b1 b2
  · exact piece_eq 13 (by omega) Facts₀.inb_S4096x16_S4096x1_0_13 Facts₀.inb_S16x1024_S1x1024_13_0
      Facts₀.slices_S4096x16_o0_13_S4096x1 Facts₀.slices_S16_o13_S1 b0 hb b1 b2
  · exact piece_eq 12 (by omega) Facts₀.inb_S4096x16_S4096x1_0_12 Facts₀.inb_S16x1024_S1x1024_12_0
      Facts₀.slices_S4096x16_o0_12_S4096x1 Facts₀.slices_S16_o12_S1 b0 hb b1 b2
  · exact piece_eq 11 (by omega) Facts₀.inb_S4096x16_S4096x1_0_11 Facts₀.inb_S16x1024_S1x1024_11_0
      Facts₀.slices_S4096x16_o0_11_S4096x1 Facts₀.slices_S16_o11_S1 b0 hb b1 b2
  · exact piece_eq 10 (by omega) Facts₀.inb_S4096x16_S4096x1_0_10 Facts₀.inb_S16x1024_S1x1024_10_0
      Facts₀.slices_S4096x16_o0_10_S4096x1 Facts₀.slices_S16_o10_S1 b0 hb b1 b2
  · exact piece_eq 9 (by omega) Facts₀.inb_S4096x16_S4096x1_0_9 Facts₀.inb_S16x1024_S1x1024_9_0
      Facts₀.slices_S4096x16_o0_9_S4096x1 Facts₀.slices_S16_o9_S1 b0 hb b1 b2
  · exact piece_eq 8 (by omega) Facts₀.inb_S4096x16_S4096x1_0_8 Facts₀.inb_S16x1024_S1x1024_8_0
      Facts₀.slices_S4096x16_o0_8_S4096x1 Facts₀.slices_S16_o8_S1 b0 hb b1 b2
  · exact piece_eq 7 (by omega) Facts₀.inb_S4096x16_S4096x1_0_7 Facts₀.inb_S16x1024_S1x1024_7_0
      Facts₀.slices_S4096x16_o0_7_S4096x1 Facts₀.slices_S16_o7_S1 b0 hb b1 b2
  · exact piece_eq 6 (by omega) Facts₀.inb_S4096x16_S4096x1_0_6 Facts₀.inb_S16x1024_S1x1024_6_0
      Facts₀.slices_S4096x16_o0_6_S4096x1 Facts₀.slices_S16_o6_S1 b0 hb b1 b2
  · exact piece_eq 5 (by omega) Facts₀.inb_S4096x16_S4096x1_0_5 Facts₀.inb_S16x1024_S1x1024_5_0
      Facts₀.slices_S4096x16_o0_5_S4096x1 Facts₀.slices_S16_o5_S1 b0 hb b1 b2
  · exact piece_eq 4 (by omega) Facts₀.inb_S4096x16_S4096x1_0_4 Facts₀.inb_S16x1024_S1x1024_4_0
      Facts₀.slices_S4096x16_o0_4_S4096x1 Facts₀.slices_S16_o4_S1 b0 hb b1 b2
  · exact piece_eq 3 (by omega) Facts₀.inb_S4096x16_S4096x1_0_3 Facts₀.inb_S16x1024_S1x1024_3_0
      Facts₀.slices_S4096x16_o0_3_S4096x1 Facts₀.slices_S16_o3_S1 b0 hb b1 b2
  · exact piece_eq 2 (by omega) Facts₀.inb_S4096x16_S4096x1_0_2 Facts₀.inb_S16x1024_S1x1024_2_0
      Facts₀.slices_S4096x16_o0_2_S4096x1 Facts₀.slices_S16_o2_S1 b0 hb b1 b2
  · exact piece_eq 1 (by omega) Facts₀.inb_S4096x16_S4096x1_0_1 Facts₀.inb_S16x1024_S1x1024_1_0
      Facts₀.slices_S4096x16_o0_1_S4096x1 Facts₀.slices_S16_o1_S1 b0 hb b1 b2
  · exact piece_eq 0 (by omega) Facts₀.inb_S4096x16_S4096x1_0_0 Facts₀.inb_S16x1024_S1x1024_0_0
      Facts₀.slices_S4096x16_o0_0_S4096x1 Facts₀.slices_S16_o0_S1 b0 hb b1 b2

/-! ## From the blocks to the array -/

variable (m : (ℓ : Loc nD τ sig) → Buf (Elt Ideal) ℓ) (ρ : Dev nD → PrngReg)

/-- The class numbers, the table and the bias vector as the region finds them. -/
abbrev xarr (c : Dev nD) : Vec Ideal S1048576x16 .i32 := V m c main_arg0
abbrev tarr (c : Dev nD) : Vec Ideal S16x1024 .f32 := V m c main_arg1
abbrev garr (c : Dev nD) : Vec Ideal S16 .f32 := V m c main_arg2

/-- Point `t`'s three input blocks, at their literal shapes. -/
abbrev xblk (c : Dev nD) (t : Fin cfg0.N) : Vec Ideal S4096x16 .i32 := iblk m c 0 t
abbrev tblk (c : Dev nD) (t : Fin cfg0.N) : Vec Ideal S16x1024 .f32 := iblk m c 1 t
abbrev gblk (c : Dev nD) (t : Fin cfg0.N) : Vec Ideal S16 .f32 := iblk m c 2 t

/-- The printed index maps over the grid: the class-number block and the output block of point `t` are row block `t`;
    the table and the bias vector are staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of the lookup of the three argument arrays. -/
theorem flushed_eq (c : Dev nD) (t : Fin cfg0.N) (hin : ∀ i, (xarr m c i).toNat < 1024) :
    (dats m 0 c).flushed 3 t = ((cfg0.win 3).blk t).view.read (Elt Ideal) (lookup (xarr m c) (tarr m c) (garr m c)) := by
  obtain ⟨e0, e1, e2, e3, e4, e5, e6⟩ := idx_facts t
  rw [Value.flushed3]
  funext y
  have h0 : ((cfg0.win 0).blk t).view.emb y = ((cfg0.win 3).blk t).view.emb y := by
    funext a; apply Fin.ext
    match a with
    | ⟨0, _⟩ =>
      show win0_0.index t (0 : Fin 2) * 4096 + 1 * (y 0).val = win0_3.index t (0 : Fin 2) * 4096 + 1 * (y 0).val
      rw [e0, e5]
    | ⟨1, _⟩ =>
      show win0_0.index t (1 : Fin 2) * 16 + 1 * (y 1).val = win0_3.index t (1 : Fin 2) * 16 + 1 * (y 1).val
      rw [e1, e6]
  have hx : ∀ y' : S4096x16.Idx, xblk m c t y' = xarr m c (((cfg0.win 0).blk t).view.emb y') := fun _ => rfl
  have h1 : ∀ z : S16x1024.Idx, tblk m c t z = tarr m c z := fun z => by
    show V m c main_arg1 (((cfg0.win 1).blk t).view.emb z) = V m c main_arg1 z
    congr 1
    funext a; apply Fin.ext
    match a with
    | ⟨0, _⟩ => show win0_1.index t (0 : Fin 2) * 16 + 1 * (z 0).val = (z 0).val; rw [e2]; omega
    | ⟨1, _⟩ => show win0_1.index t (1 : Fin 2) * 1024 + 1 * (z 1).val = (z 1).val; rw [e3]; omega
  have h2 : ∀ z : S16.Idx, gblk m c t z = garr m c z := fun z => by
    show V m c main_arg2 (((cfg0.win 2).blk t).view.emb z) = V m c main_arg2 z
    congr 1
    funext a; apply Fin.ext
    match a with
    | ⟨0, _⟩ => show win0_2.index t (0 : Fin 1) * 16 + 1 * (z 0).val = (z 0).val; rw [e4]; omega
  have hy1 : (((cfg0.win 3).blk t).view.emb y) 1 = y 1 := by
    apply Fin.ext
    show win0_3.index t (1 : Fin 2) * 16 + 1 * (y 1).val = (y 1).val
    rw [e6]; omega
  show out0_3 (xblk m c t) (tblk m c t) (gblk m c t) y
    = lookup (xarr m c) (tarr m c) (garr m c) (((cfg0.win 3).blk t).view.emb y)
  rw [out_apply (xblk m c t) (fun y' => by rw [hx]; exact hin _) (tblk m c t) (gblk m c t) y]
  show tblk m c t (ix2 (y 1) (classOf (xblk m c t y))) + gblk m c t (ix1 (y 1))
    = tarr m c (ix2 ((((cfg0.win 3).blk t).view.emb y) 1) (classOf (xarr m c (((cfg0.win 3).blk t).view.emb y))))
      + garr m c (ix1 ((((cfg0.win 3).blk t).view.emb y) 1))
  rw [h1, h2, hx, h0, hy1]

/-- An index of the array is in point `t`'s block iff each coordinate is in the block's range on its axis. -/
theorem mem_blk (t : Fin cfg0.N) (i : S1048576x16.Idx) :
    i ∈ ((cfg0.win 3).blk t).view.set
      ↔ ∀ a : Fin 2, win0_3.index t a * S4096x16.size a ≤ (i a).val ∧ (i a).val < win0_3.index t a * S4096x16.size a + S4096x16.size a := by
  show i ∈ ((View.whole main_v0).slice (win0_3.rect t)).set ↔ _
  rw [View.set_slice_whole, Rect.mem_set_unit]
  exact Iff.rfl

/-- THE BLOCKS TILE THE ARRAY: row `r` is in the block of point `r / 4096`. -/
theorem cover (i : S1048576x16.Idx) :
    ∃ t : Fin cfg0.N, (cfg0.win 3).flush t = true ∧ i ∈ ((cfg0.win 3).blk t).view.set := by
  have hi0 : (i 0).val < 1048576 := (i 0).isLt
  have hi1 : (i 1).val < 16 := (i 1).isLt
  have hN : cfg0.N = 256 := N_0
  have ht : (i 0).val / 4096 < cfg0.N := by rw [hN]; omega
  obtain ⟨-, -, -, -, -, e5, e6⟩ := idx_facts ⟨(i 0).val / 4096, ht⟩
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e5]
    show (i 0).val / 4096 * 4096 ≤ (i 0).val ∧ (i 0).val < (i 0).val / 4096 * 4096 + 4096
    omega
  | ⟨1, _⟩ =>
    show win0_3.index ⟨(i 0).val / 4096, ht⟩ (1 : Fin 2) * 16 ≤ (i 1).val
      ∧ (i 1).val < win0_3.index ⟨(i 0).val / 4096, ht⟩ (1 : Fin 2) * 16 + 16
    rw [e6]
    omega

/-- THE ARRAY after the run, for class numbers in range: the lookup of the argument arrays. -/
theorem final (c : Dev nD) (hin : ∀ i, (xarr m c i).toNat < 1024) :
    (dats m 0 c).arrAt 3 cfg0.N = lookup (xarr m c) (tarr m c) (garr m c) :=
  (dats m 0 c).arrAt_eq_of_cover 3 (lookup (xarr m c) (tarr m c) (garr m c)) (fun t _ => flushed_eq m c t hin) cover

/-- THE RUN, read: for class numbers in range on every device, the result array ends at the lookup of the argument
    arrays, and the arguments are unchanged. -/
theorem run (hin : ∀ (c : Dev nD) (i : S1048576x16.Idx), (m ((c : Thread nD τ).loc main_arg0) i).toNat < 1024) :
    θ_run defs (onTc (τ := τ) (main (F := Ideal))) ⟨m, fun _ => 0, ρ⟩ fun r => ∀ c : Dev nD,
      r.2.mem ((c : Thread nD τ).loc main_v0)
        = lookup (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hin c)), (h c).2⟩) (Value.run_blocks m ρ)

end Cert.KernelIdeal.KernelValue

end
-- ==== Proof.RefValue.lean ====
/-
  THE REFERENCE READ AT AN ENTRY.

  The reference gathers `class_bias[f, inputs[r, f]]` for every row `r` and feature `f` and adds `global_bias[f]`. Its
  program wraps a negative index once (`i < 0 ? i + n : i`, for the feature numbers `0 … 15` and for the class numbers),
  pairs the two index components along a last axis of extent 2, and gathers single elements of the `[16, 1024]` table
  with both axes collapsed, each start component read signed and clamped into its axis. For a class number
  `0 ≤ inputs[r, f] < 1024` neither the wrap nor the clamp changes anything: the feature component is `f`, the class
  component is `inputs[r, f]`, and the entry is `class_bias[f, inputs[r, f]] + global_bias[f]` (`reference_apply`).
-/
import proofs.«415136_j18210661335091_2_alg».proof.Proof.Gen.ReferenceIdeal.Read
import Idealize.ShloMosaic.Lib.ValueIdx
import Idealize.ShloMosaic.Lib.Pipeline.Value
import Idealize.ShloMosaic.Lib.StableHlo.Predicate
import proofs.«415136_j18210661335091_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## Words -/

/-- The wrap of a negative index leaves a non-negative word as it is. -/
theorem wrap_keep (x n : BitVec 32) (hx : x.toNat < 2 ^ 31) :
    Scalar.select (IntOp.cmpi .slt x 0#32) (IntOp.addi x n) x = x := by
  unfold Scalar.select
  rw [if_neg]
  intro h
  have h' := (StableHlo.Predicate.slt_iff_toNat hx (by decide)).1 h
  exact absurd h' (Nat.not_lt_zero _)

/-- A small number's word, read signed, is the number. -/
theorem toNat_toInt_ofNat (a : Nat) (ha : a < 2 ^ 31) : (BitVec.ofNat 32 a).toInt.toNat = a := by
  rw [StableHlo.Predicate.toInt_ofNat_small a ha]
  exact Int.toNat_natCast a

/-- A word below 2³¹, read signed, is its value. -/
theorem toNat_toInt_of_lt (x : BitVec 32) (hx : x.toNat < 2 ^ 31) : x.toInt.toNat = x.toNat := by
  rw [StableHlo.Predicate.toInt_eq_toNat_of_lt hx]
  exact Int.toNat_natCast _

/-! ## The two index components -/

/-- The wrapped feature numbers, one row of sixteen: entry `f` is the word `f`. -/
theorem feature_word (f : Fin 16) : val_main_v6 (F := Ideal) (ix2 (0 : Fin 1) f) = BitVec.ofNat 32 f.val := by
  rw [val_main_v6_apply, val_main_v3_apply, val_main_v5_apply, val_main_v2_apply, val_main_c_apply, val_main_v1_apply,
    val_main_v0_apply]
  refine wrap_keep _ _ ?_
  show (BitVec.ofNat 32 f.val).toNat < 2 ^ 31
  rw [BitVec.toNat_ofNat]
  have := f.isLt
  omega

/-- The wrapped class numbers: a non-negative class number is kept. -/
theorem class_word (x0 : IVec S1048576x16 32) (i : S1048576x16.Idx) (hx : (x0 i).toNat < 2 ^ 31) :
    val_main_v11 (F := Ideal) x0 i = x0 i := by
  rw [val_main_v11_apply, val_main_v8_apply, val_main_v10_apply, val_main_v7_apply, val_main_c_1_apply]
  exact wrap_keep _ _ hx

/-- Component 0 of the start index of entry `(r, f)`: the feature number. -/
theorem start_feature (x0 : IVec S1048576x16 32) (r : Fin 1048576) (f : Fin 16) :
    val_main_v15 (F := Ideal) x0 (ix3 r f (0 : Fin 2)) = BitVec.ofNat 32 f.val := by
  unfold val_main_v15
  refine (concatenate_pair_apply_left (t := S1048576x16x2) (s₁ := S1048576x16x1) (s₂ := S1048576x16x1)
    (2 : Fin S1048576x16x2.rank) _ _ _ (ix3 r f (0 : Fin 2)) rfl (ix3 r f (0 : Fin 1))
    (fun b => by match b with | ⟨0, _⟩ => rfl | ⟨1, _⟩ => rfl | ⟨2, _⟩ => rfl)).trans ?_
  rw [val_main_v13_apply, val_main_v12_apply]
  have e : idx_main_v12 (idx_main_v13 (ix3 r f (0 : Fin 1))) = ix2 (0 : Fin 1) f := by
    funext a; apply Fin.ext
    match a with
    | ⟨0, _⟩ => rfl
    | ⟨1, _⟩ => rfl
  rw [e]
  exact feature_word f

/-- Component 1 of the start index of entry `(r, f)`: the class number, when it is not negative. -/
theorem start_class (x0 : IVec S1048576x16 32) (r : Fin 1048576) (f : Fin 16) (hx : (x0 (ix2 r f)).toNat < 2 ^ 31) :
    val_main_v15 (F := Ideal) x0 (ix3 r f (1 : Fin 2)) = x0 (ix2 r f) := by
  unfold val_main_v15
  refine (concatenate_pair_apply_right (t := S1048576x16x2) (s₁ := S1048576x16x1) (s₂ := S1048576x16x1)
    (2 : Fin S1048576x16x2.rank) _ _ _ (ix3 r f (1 : Fin 2)) rfl rfl (ix3 r f (0 : Fin 1))
    (fun b hb => by
      match b with
      | ⟨0, _⟩ => rfl
      | ⟨1, _⟩ => rfl
      | ⟨2, _⟩ => exact absurd rfl hb)
    rfl).trans ?_
  rw [val_main_v14_apply]
  have e : idx_main_v14 (ix3 r f (0 : Fin 1)) = ix2 r f := by
    funext a; apply Fin.ext
    match a with
    | ⟨0, _⟩ => rfl
    | ⟨1, _⟩ => rfl
  rw [e]
  exact class_word x0 _ hx

/-! ## The gather of single elements -/

/-- The start-indices index of component `c` of entry `(r, f)`'s start index is `(r, f, c)`. -/
theorem siIdx_entry (r : Fin 1048576) (f : Fin 16) (c : Fin 2)
    (hc : c.val < gather_S16x1024_S1048576x16x2_S1048576x16_n_01_n_n_01_2_11.startIndexMap.length) :
    gather_S16x1024_S1048576x16x2_S1048576x16_n_01_n_n_01_2_11.siIdx (ix2 r f) ⟨c.val, hc⟩ = ix3 r f c := by
  funext b; apply Fin.ext
  match b with
  | ⟨0, _⟩ => rfl
  | ⟨1, _⟩ => rfl
  | ⟨2, _⟩ => rfl

/-- THE GATHER READ AT `(r, f)`: with start index `(f, c)`, `c` a class number in range, the table's entry `(f, c)`. -/
theorem gather_entry {α : Type} (x1 : S16x1024.Idx → α) (idx : IVec S1048576x16x2 32) (r : Fin 1048576) (f : Fin 16) (c : Fin 1024)
    (h0 : idx (ix3 r f (0 : Fin 2)) = BitVec.ofNat 32 f.val) (h1 : (idx (ix3 r f (1 : Fin 2))).toNat = c.val) :
    Host.gather gather_S16x1024_S1048576x16x2_S1048576x16_n_01_n_n_01_2_11 x1 idx (ix2 r f) = x1 (ix2 f c) := by
  have hm0 : (0 : Fin S16x1024.rank) ∈ gather_S16x1024_S1048576x16x2_S1048576x16_n_01_n_n_01_2_11.startIndexMap :=
    List.mem_cons_self
  have hm1 : (1 : Fin S16x1024.rank) ∈ gather_S16x1024_S1048576x16x2_S1048576x16_n_01_n_n_01_2_11.startIndexMap :=
    List.mem_cons_of_mem _ List.mem_cons_self
  have hk : ∀ a : Fin S16x1024.rank, a ∉ gather_S16x1024_S1048576x16x2_S1048576x16_n_01_n_n_01_2_11.sKept := fun a h =>
    ((GatherDims.mem_sKept _ a).mp h).1 (by
      show a ∈ ([0, 1] : List (Fin S16x1024.rank))
      match a with
      | ⟨0, _⟩ => exact List.mem_cons_self
      | ⟨1, _⟩ => exact List.mem_cons_of_mem _ List.mem_cons_self)
  have hf := f.isLt
  have hcl := c.isLt
  unfold Host.gather
  congr 1
  funext a
  refine Fin.ext ?_
  match a with
  | ⟨0, _⟩ =>
    show gather_S16x1024_S1048576x16x2_S1048576x16_n_01_n_n_01_2_11.start (ix2 r f) idx 0
        + gather_S16x1024_S1048576x16x2_S1048576x16_n_01_n_n_01_2_11.batchCoord (ix2 r f) 0
        + gather_S16x1024_S1048576x16x2_S1048576x16_n_01_n_n_01_2_11.offCoord (ix2 r f) 0 = f.val
    rw [GatherDims.batchCoord_eq_zero _ _ _ List.not_mem_nil, GatherDims.offCoord_eq_zero _ _ _ (hk 0)]
    unfold GatherDims.start
    rw [dif_pos hm0]
    rw [show gather_S16x1024_S1048576x16x2_S1048576x16_n_01_n_n_01_2_11.siIdx (ix2 r f)
        ⟨List.idxOf (0 : Fin S16x1024.rank) gather_S16x1024_S1048576x16x2_S1048576x16_n_01_n_n_01_2_11.startIndexMap,
          List.idxOf_lt_length_iff.2 hm0⟩ = ix3 r f (0 : Fin 2) from siIdx_entry r f 0 _]
    rw [h0, toNat_toInt_ofNat f.val (by omega)]
    show min f.val (16 - 1) + 0 + 0 = f.val
    omega
  | ⟨1, _⟩ =>
    show gather_S16x1024_S1048576x16x2_S1048576x16_n_01_n_n_01_2_11.start (ix2 r f) idx 1
        + gather_S16x1024_S1048576x16x2_S1048576x16_n_01_n_n_01_2_11.batchCoord (ix2 r f) 1
        + gather_S16x1024_S1048576x16x2_S1048576x16_n_01_n_n_01_2_11.offCoord (ix2 r f) 1 = c.val
    rw [GatherDims.batchCoord_eq_zero _ _ _ List.not_mem_nil, GatherDims.offCoord_eq_zero _ _ _ (hk 1)]
    unfold GatherDims.start
    rw [dif_pos hm1]
    rw [show gather_S16x1024_S1048576x16x2_S1048576x16_n_01_n_n_01_2_11.siIdx (ix2 r f)
        ⟨List.idxOf (1 : Fin S16x1024.rank) gather_S16x1024_S1048576x16x2_S1048576x16_n_01_n_n_01_2_11.startIndexMap,
          List.idxOf_lt_length_iff.2 hm1⟩ = ix3 r f (1 : Fin 2) from siIdx_entry r f 1 _]
    rw [toNat_toInt_of_lt _ (by omega), h1]
    show min c.val (1024 - 1) + 0 + 0 = c.val
    omega

/-! ## The reference's result at an entry -/

/-- THE REFERENCE AT `(r, f)`, for a class number in range: the table's entry at feature `f` and that class number, plus
    the bias of feature `f`. -/
theorem reference_apply (x0 : IVec S1048576x16 32) (x1 : FVec Ideal S16x1024 .f32) (x2 : FVec Ideal S16 .f32)
    (r : Fin 1048576) (f : Fin 16) (hin : (x0 (ix2 r f)).toNat < 1024) :
    val_main_v19 (F := Ideal) x0 x1 x2 (ix2 r f) = x1 (ix2 f (⟨(x0 (ix2 r f)).toNat, hin⟩ : Fin 1024)) + x2 (ix1 f) := by
  rw [val_main_v19_apply, val_main_v18_apply, val_main_v17_apply]
  have e : idx_main_v17 (idx_main_v18 (ix2 r f)) = ix1 f := by
    funext a; apply Fin.ext
    match a with
    | ⟨0, _⟩ => rfl
  rw [e]
  unfold val_main_v16
  rw [gather_entry x1 (val_main_v15 (F := Ideal) x0) r f ⟨(x0 (ix2 r f)).toNat, hin⟩ (start_feature x0 r f)
    (by rw [start_class x0 r f (by omega)])]
  rfl

/-- THE REFERENCE'S RESULT, for class numbers in range, is the lookup of its arguments. -/
theorem reference_eq (x0 : IVec S1048576x16 32) (x1 : FVec Ideal S16x1024 .f32) (x2 : FVec Ideal S16 .f32)
    (hin : ∀ i, (x0 i).toNat < 1024) :
    val_main_v19 (F := Ideal) x0 x1 x2 = Cert.Spec.lookup (n := 1048576) x0 x1 x2 := by
  funext i
  obtain ⟨r, f, rfl⟩ : ∃ (r : Fin 1048576) (f : Fin 16), i = ix2 r f := ⟨i 0, i 1, eq_ix2 i⟩
  rw [reference_apply x0 x1 x2 r f (hin _), Cert.Spec.lookup_ix2, Cert.Spec.classOf_of_lt _ (hin _)]

end Cert.ReferenceIdeal.RefValue

end
-- ==== Proof.InRange.lean ====
/-
  THE PRECONDITION, READ BACK: every class number is in `[0, 1024)`.

  The precondition's last conjunct is `jnp.all((inputs >= 0) & (inputs < 1024))`: a reduction by `and` over the whole
  index array of the two signed comparisons' conjunction. The predicate being `1` makes every conjunct `1`, the
  reduction being `1` makes every element `1`, and a word that is `≥ 0` and `< 1024` as a signed integer is below
  `1024` as a natural number.
-/
import proofs.«415136_j18210661335091_2_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Pre_finite_inputs.InRange

open Cert.Pre_finite_inputs Idealize.ShloMosaic Idealize.ShloMosaic.ValueIdx

/-- A word that is `≥ 0` and `< 1024` signed is below `1024` unsigned. -/
theorem toNat_lt_of_signed (w : BitVec 32) (h0 : IntOp.cmpi .sge w 0#32 = 1#1) (h1 : IntOp.cmpi .slt w 1024#32 = 1#1) :
    w.toNat < 1024 := by
  have hw := w.isLt
  have z0 : (0#32 : BitVec 32).toInt = 0 := by decide
  have z1 : (1024#32 : BitVec 32).toInt = 1024 := by decide
  unfold IntOp.cmpi at h0 h1
  rw [StableHlo.Predicate.ofBool_eq_one_iff] at h0 h1
  simp only [BitVec.sle, BitVec.slt, decide_eq_true_eq, z0, z1] at h0 h1
  rw [BitVec.toInt_eq_toNat_cond] at h0 h1
  by_cases hc : 2 * w.toNat < 2 ^ 32
  · rw [if_pos hc] at h0 h1; omega
  · rw [if_neg hc] at h0 h1; omega

instance : Subsingleton S_.Idx := ⟨fun a b => funext fun d => d.elim0⟩

/-- THE PRECONDITION DECODED: every class number is below 1024. -/
theorem in_range (x0 : IVec S1048576x16 32) (x1 : FVec Ideal S16x1024 .f32) (x2 : FVec Ideal S16 .f32)
    (h : fn (F := Ideal) x0 x1 x2 = fun _ => 1#1) (i : S1048576x16.Idx) : (x0 i).toNat < 1024 := by
  have e := congrFun h ix0
  dsimp only [fn] at e
  have e2 := (IntOp.andi_eq_one.1 e).2
  have e3 := Host.reduce_andi_all _ _ _ _ ix0 e2 i
  obtain ⟨hge, hlt⟩ := IntOp.andi_eq_one.1 e3
  exact toNat_lt_of_signed (x0 i) hge hlt

end Cert.Pre_finite_inputs.InRange

end
-- ==== Proof.lean ====
/-
  The kernel adds to each row's sixteen categorical features their per-class biases: entry `(r, f)` of the result is
  `class_bias[f, inputs[r, f]] + global_bias[f]`. The reference reads the table by a gather of single elements; the
  kernel, 4096 rows at a grid point, multiplies for each feature the one-hot matrix `(inputs[r, f] = k)` of a quarter
  of the 1024 classes with that quarter of the feature's table row, adds the four quarters to zero and then the bias.
  Over the extended reals a one-hot row times a column is the column's entry at the hot position (`0 · x = 0` for every
  extended real `x`), so for class numbers `0 ≤ inputs[r, f] < 1024` — the precondition's last conjunct — both programs
  compute `Spec.lookup` of the three arguments: the kernel by KernelValue.lean (over Column.lean, OneHot.lean and
  Pieces.lean), the reference by RefValue.lean; InRange.lean reads the range out of the precondition. Outside that range the
  two differ (the one-hot row is all zeros where the gather wraps and clamps), which is why the range is assumed.
  The frames are the generated ones; the ideal pass rewrote nothing, so `preserves` is `True`.
-/
import proofs.«415136_j18210661335091_2_alg».proof.Defs
import proofs.«415136_j18210661335091_2_alg».proof.Proof.Gen.Kernel
import proofs.«415136_j18210661335091_2_alg».proof.Proof.Gen.Kernel.Skeleton
import proofs.«415136_j18210661335091_2_alg».proof.Proof.Gen.Kernel.Launch
import proofs.«415136_j18210661335091_2_alg».proof.Proof.Gen.Kernel.Points
import proofs.«415136_j18210661335091_2_alg».proof.Proof.Gen.Kernel.Frame
import proofs.«415136_j18210661335091_2_alg».proof.Proof.Gen.KernelIdeal
import proofs.«415136_j18210661335091_2_alg».proof.Proof.Gen.KernelIdeal.Skeleton
import proofs.«415136_j18210661335091_2_alg».proof.Proof.Gen.KernelIdeal.Launch
import proofs.«415136_j18210661335091_2_alg».proof.Proof.Gen.KernelIdeal.Points
import proofs.«415136_j18210661335091_2_alg».proof.Proof.Gen.KernelIdeal.Frame
import proofs.«415136_j18210661335091_2_alg».proof.Proof.Gen.ReferenceIdeal
import proofs.«415136_j18210661335091_2_alg».proof.Proof.Gen.Pre_finite_inputs
import proofs.«415136_j18210661335091_2_alg».proof.Proof.Gen.KernelIdeal.Value
import proofs.«415136_j18210661335091_2_alg».proof.Proof.Gen.ReferenceIdeal.Run
import proofs.«415136_j18210661335091_2_alg».proof.Proof.Gen.ReferenceIdeal.Read
import proofs.«415136_j18210661335091_2_alg».proof.Proof.KernelValue
import proofs.«415136_j18210661335091_2_alg».proof.Proof.RefValue
import proofs.«415136_j18210661335091_2_alg».proof.Proof.InRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the lookup of the arguments in their result arrays: the kernel's run read block by
    block, the reference's run read entry by entry, the class numbers in range by the precondition. -/
theorem algebraic : Cert.algebraic_KernelIdeal_ReferenceIdeal := by
  intro m ρ m' ρ' hpre hagree
  have hin : ∀ (c : Dev Cert.KernelIdeal.nD) (i : Cert.KernelIdeal.S1048576x16.Idx),
      (m ((c : Thread Cert.KernelIdeal.nD Cert.KernelIdeal.τ).loc Cert.KernelIdeal.main_arg0) i).toNat < 1024 :=
    fun c i => Cert.Pre_finite_inputs.InRange.in_range _ _ _ (hpre c) i
  refine ⟨_, Cert.KernelIdeal.KernelValue.run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  exact Cert.ReferenceIdeal.RefValue.reference_eq _ _ _ (hin c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
